-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S32x2048x64 : Shape := ⟨3, ![32, 2048, 64]⟩
abbrev S1x1024x64 : Shape := ⟨3, ![1, 1024, 64]⟩
abbrev S1x2048x64 : Shape := ⟨3, ![1, 2048, 64]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x2048x64, .f32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S2x16x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x64, .f32⟩
  | .local _ .vmem, ⟨7, _⟩ => ⟨S1x1024x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2x16x2048x64_S32x2048x64 : S2x16x2048x64.ShapeCasts S32x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1024x64 : S1024x64.ShapeCasts S1x1024x64
  shapeCasts_S32x2048x64_S2x16x2048x64 : S32x2048x64.ShapeCasts S2x16x2048x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x2048x64.size a
  hwx0_0 : ∀ i : grid0.Coords, EltTy.bits .f32 = 32 ∨ (Rect.block (s := S32x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S32x2048x64.size a
  hwx0_3 : ∀ i : grid0.Coords, EltTy.bits .f32 = 32 ∨ (Rect.block (s := S32x2048x64) S1x1024x64.size (cc0_transform_3 i) (hinb0_3 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .f32⟩
  | .hbm, ⟨4, _⟩ => ⟨S_, .f32⟩
  | .hbm, ⟨5, _⟩ => ⟨S2x16x2048x2048, .f32⟩
  | .hbm, ⟨6, _⟩ => ⟨S2x16x2048x2048, .f32⟩
  | .hbm, ⟨7, _⟩ => ⟨S_, .f32⟩
  | .hbm, ⟨8, _⟩ => ⟨S2x16x2048, .f32⟩
  | .hbm, ⟨9, _⟩ => ⟨S_, .f32⟩
  | .hbm, ⟨10, _⟩ => ⟨S2x16x2048, .f32⟩
  | .hbm, ⟨11, _⟩ => ⟨S2x16x2048, .f32⟩
  | .hbm, ⟨12, _⟩ => ⟨S2x16x2048x1, .f32⟩
  | .hbm, ⟨13, _⟩ => ⟨S2x16x2048x2048, .f32⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048, .f32⟩
  | .hbm, ⟨18, _⟩ => ⟨S2x16x2048x1, .f32⟩
  | .hbm, ⟨19, _⟩ => ⟨S2x16x2048x2048, .f32⟩
  | .hbm, ⟨20, _⟩ => ⟨S2x16x2048x2048, .f32⟩
  | .hbm, ⟨21, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Softmax.lean ====
/-
  One head of scaled dot-product attention, on the extended reals, in the two arrangements the two programs
  compute it in.

  For a query row `q : D → EReal`, keys `k : S → D → EReal`, one column of the values `v : S → EReal` and a scale `c`:
  the score of key `s` is the contraction of `q` with `k s` over `D`, scaled; a score's weight is `exp` of its distance
  below the row's largest score; the result is the weights' mixture of `v`, divided by the weights' total.
  The scale may sit on the query before the contraction (`scoreIn`) or on the contraction (`scoreOut`), and the
  division by the total may come after the mixture (`normalizeMixed`) or on each weight before it (`mixNormalized`).
  On finite inputs the arrangements agree: the scale leaves a finite sum of finite products (distributivity, which the
  extended reals have only away from the infinities), the largest of finitely many finite scores is finite, so every
  weight is a positive real and so is their total, and dividing by a nonzero real is multiplying by its reciprocal,
  which again moves across a finite sum of reals.
-/
import Idealize.ShloMosaic.PureOps.Ideal

noncomputable section

namespace Cert.Attention

open Idealize.ShloMosaic

variable {S D : Type} [Fintype S] [Fintype D]

/-! ## The two arrangements -/

/-- The score of key `s`, the scale applied to the contraction. -/
def scoreOut (c : EReal) (q : D → EReal) (k : S → D → EReal) (s : S) : EReal := (∑ d, q d * k s d) * c

/-- The score of key `s`, the scale applied to the query's entries before the contraction. -/
def scoreIn (c : EReal) (q : D → EReal) (k : S → D → EReal) (s : S) : EReal := ∑ d, (q d * c) * k s d

/-- The largest score of the row: the running maximum from `-∞`. -/
def top (f : S → EReal) : EReal := (Finset.univ : Finset S).fold max ⊥ f

/-- A score's weight: `exp` of its distance below the largest. -/
def weight (f : S → EReal) (s : S) : EReal := Ideal.exp (f s - top f)

/-- The weights' total. -/
def mass (f : S → EReal) : EReal := ∑ s, weight f s

/-- Each weight divided by the total, then the mixture. -/
def mixNormalized (f v : S → EReal) : EReal := ∑ s, Ideal.div (weight f s) (mass f) * v s

/-- The mixture, then one division by the total. -/
def normalizeMixed (f v : S → EReal) : EReal := Ideal.div (∑ s, weight f s * v s) (mass f)

/-! ## Finite sums and maxima of reals, as extended reals -/

/-- The coercion commutes with a finite sum. -/
theorem coe_sum {ι : Type} (t : Finset ι) (g : ι → ℝ) : ((∑ i ∈ t, g i : ℝ) : EReal) = ∑ i ∈ t, (g i : EReal) := by
  classical
  induction t using Finset.induction_on with
  | empty => simp
  | insert a t ha ih => rw [Finset.sum_insert ha, Finset.sum_insert ha, EReal.coe_add, ih]

/-- The coercion commutes with `max`. -/
theorem coe_max (x y : ℝ) : ((max x y : ℝ) : EReal) = max (x : EReal) (y : EReal) :=
  EReal.coe_strictMono.monotone.map_max

/-- The running maximum from `-∞` over a nonempty set of reals is a real. -/
theorem fold_max_coe (f : S → ℝ) {t : Finset S} (ht : t.Nonempty) :
    ∃ r : ℝ, t.fold max (⊥ : EReal) (fun s => (f s : EReal)) = (r : EReal) := by
  induction ht using Finset.Nonempty.cons_induction with
  | singleton a => exact ⟨f a, by rw [Finset.fold_singleton, max_bot_right]⟩
  | cons a t ha _ ih =>
    obtain ⟨r, hr⟩ := ih
    exact ⟨max (f a) r, by rw [Finset.fold_cons, hr, coe_max]⟩

/-- So the largest of finitely many (at least one) finite scores is finite. -/
theorem top_coe [Nonempty S] (f : S → ℝ) : ∃ r : ℝ, top (fun s => (f s : EReal)) = (r : EReal) :=
  fold_max_coe f Finset.univ_nonempty

/-! ## The scale: on the query or on the contraction -/

theorem scoreOut_coe (c : ℝ) (q : D → ℝ) (k : S → D → ℝ) (s : S) :
    scoreOut (c : EReal) (fun d => (q d : EReal)) (fun s d => (k s d : EReal)) s = (((∑ d, q d * k s d) * c : ℝ) : EReal) := by
  unfold scoreOut
  simp only [← EReal.coe_mul]
  rw [← coe_sum, ← EReal.coe_mul]

theorem scoreIn_coe (c : ℝ) (q : D → ℝ) (k : S → D → ℝ) (s : S) :
    scoreIn (c : EReal) (fun d => (q d : EReal)) (fun s d => (k s d : EReal)) s = (((∑ d, q d * k s d) * c : ℝ) : EReal) := by
  unfold scoreIn
  simp only [← EReal.coe_mul]
  rw [← coe_sum, Finset.sum_mul]
  exact congrArg _ (Finset.sum_congr rfl fun d _ => by ring)

/-! ## The division: on the mixture or on the weights -/

/-- On finite scores and finite values the two places of the division agree. -/
theorem normalizeMixed_eq_mixNormalized [Nonempty S] (f v : S → ℝ) :
    normalizeMixed (fun s => (f s : EReal)) (fun s => (v s : EReal))
      = mixNormalized (fun s => (f s : EReal)) (fun s => (v s : EReal)) := by
  obtain ⟨M, hM⟩ := top_coe f
  have hw : ∀ s, weight (fun s => (f s : EReal)) s = ((Real.exp (f s - M) : ℝ) : EReal) := fun s => by
    unfold weight
    rw [hM, ← EReal.coe_sub, Ideal.exp_coe]
  have hl : (0 : ℝ) < ∑ s : S, Real.exp (f s - M) :=
    Finset.sum_pos (fun s _ => Real.exp_pos _) Finset.univ_nonempty
  have hmass : mass (fun s => (f s : EReal)) = ((∑ s : S, Real.exp (f s - M) : ℝ) : EReal) := by
    unfold mass
    simp only [hw]
    exact (coe_sum _ _).symm
  unfold normalizeMixed mixNormalized
  simp only [hw, hmass, Ideal.div_coe hl.ne', ← EReal.coe_mul]
  rw [← coe_sum, ← coe_sum, ← EReal.coe_mul, Finset.sum_mul]
  exact congrArg _ (Finset.sum_congr rfl fun s _ => by ring)

/-- THE LAW that joins the two programs: on a finite scale, finite queries, keys and values, scaling the query and
    dividing the mixture is scaling the contraction and dividing the weights. -/
theorem normalizeMixed_scoreIn_eq [Nonempty S] (c : ℝ) (q : D → ℝ) (k : S → D → ℝ) (v : S → ℝ) :
    normalizeMixed (scoreIn (c : EReal) (fun d => (q d : EReal)) (fun s d => (k s d : EReal))) (fun s => (v s : EReal))
      = mixNormalized (scoreOut (c : EReal) (fun d => (q d : EReal)) (fun s d => (k s d : EReal))) (fun s => (v s : EReal)) := by
  have e1 : scoreIn (c : EReal) (fun d => (q d : EReal)) (fun s d => (k s d : EReal))
      = fun s => (((∑ d, q d * k s d) * c : ℝ) : EReal) := funext (scoreIn_coe c q k)
  have e2 : scoreOut (c : EReal) (fun d => (q d : EReal)) (fun s d => (k s d : EReal))
      = fun s => (((∑ d, q d * k s d) * c : ℝ) : EReal) := funext (scoreOut_coe c q k)
  rw [e1, e2]
  exact normalizeMixed_eq_mixNormalized _ v

end Cert.Attention

end
-- ==== Proof.Consts.lean ====
/-
  The float words the two programs spell, as the extended reals they denote: the scale `0.125` (the exact binary value
  of `1/√64`), which both programs write with the same word, and `-∞`, from which both take a row's largest score.
  The zero word's value is the library's `Ideal.ofBits_zero_f32`.
-/
import Idealize.ShloMosaic.PureOps.Ideal

noncomputable section

namespace Cert.Attention

open Idealize.ShloMosaic

/-- The scale both programs multiply the scores by: `0x3E000000` is `2⁻³`. -/
theorem scale_eq : Ideal.ofBits .f32 0x3E000000#32 = ((1 / 8 : ℝ) : EReal) := by
  simp [Ideal.ofBits, Ideal.ieee, -EReal.coe_mul]; norm_num

/-- `0xFF800000` is `-∞`. -/
theorem negInf_eq : Ideal.ofBits .f32 0xFF800000#32 = (⊥ : EReal) := by
  simp [Ideal.ofBits, Ideal.ieee]

end Cert.Attention

end
-- ==== Proof.RefRead.lean ====
/-
  The reference's result, read at an index: entry `(b, h, r, d)` of `einsum(softmax(einsum(Q, K) · c), V)` is one head's
  attention in the arrangement "scale the contraction, divide each weight": the scores of query row `r` of head `(b, h)`
  against every key row of that head, the largest of them taken from `-∞`, each weight over the weights' total (taken
  from `0`), mixed with column `d` of the head's values.
  The stages are the reference's own operations, one at a time (its generated reading); the one stage that reading
  leaves — the largest score, a fold over the key axis — is read here as the running maximum over that axis.
-/
import proofs.«406444_j84567906058715_3_alg».proof.Proof.Gen.ReferenceIdeal.Read
import proofs.«406444_j84567906058715_3_alg».proof.Proof.Softmax
import proofs.«406444_j84567906058715_3_alg».proof.Proof.Consts
import Idealize.ShloMosaic.PureOps.Reduce

noncomputable section

namespace Cert.AttnRef

open Cert.ReferenceIdeal Cert.ReferenceIdeal.Gen Cert.ReferenceIdeal.Read Idealize.ShloMosaic Idealize.ShloMosaic.ValueIdx
open Cert.Attention

variable (x0 x1 x2 : S2x16x2048x64.Idx → EReal)

/-- The scale, as the reference spells it. -/
abbrev scale : EReal := Ideal.ofBits .f32 0x3E000000#32

/-- The scaled scores of query row `r` of head `(b, h)`. -/
abbrev scores (b : Fin 2) (h : Fin 16) (r : Fin 2048) : Fin 2048 → EReal :=
  scoreOut scale (fun d' => x0 (ix4 b h r d')) (fun s d' => x1 (ix4 b h s d'))

/-! ## The index maps of the generated reading, at coordinates -/

theorem lidx0 (b : Fin 2) (h : Fin 16) (r s : Fin 2048) (k : Fin 64) :
    lidx_main_v0 (ix4 b h r s) k = ix4 b h r k :=
  funext fun a => Fin.ext (by match a with | ⟨0, _⟩ => rfl | ⟨1, _⟩ => rfl | ⟨2, _⟩ => rfl | ⟨3, _⟩ => rfl)
theorem ridx0 (b : Fin 2) (h : Fin 16) (r s : Fin 2048) (k : Fin 64) :
    ridx_main_v0 (ix4 b h r s) k = ix4 b h s k :=
  funext fun a => Fin.ext (by match a with | ⟨0, _⟩ => rfl | ⟨1, _⟩ => rfl | ⟨2, _⟩ => rfl | ⟨3, _⟩ => rfl)
theorem idx67 (b : Fin 2) (h : Fin 16) (r s : Fin 2048) :
    idx_main_v6 (idx_main_v7 (ix4 b h r s)) = ix3 b h r :=
  funext fun a => Fin.ext (by match a with | ⟨0, _⟩ => rfl | ⟨1, _⟩ => rfl | ⟨2, _⟩ => rfl)
theorem idx1112 (b : Fin 2) (h : Fin 16) (r s : Fin 2048) :
    idx_main_v11 (idx_main_v12 (ix4 b h r s)) = ix3 b h r :=
  funext fun a => Fin.ext (by match a with | ⟨0, _⟩ => rfl | ⟨1, _⟩ => rfl | ⟨2, _⟩ => rfl)
theorem idx10 (b : Fin 2) (h : Fin 16) (r : Fin 2048) (k : Fin 2048) :
    idx_main_v10 (ix3 b h r) k = ix4 b h r k :=
  funext fun a => Fin.ext (by match a with | ⟨0, _⟩ => rfl | ⟨1, _⟩ => rfl | ⟨2, _⟩ => rfl | ⟨3, _⟩ => rfl)
theorem lidx14 (b : Fin 2) (h : Fin 16) (r : Fin 2048) (d : Fin 64) (k : Fin 2048) :
    lidx_main_v14 (ix4 b h r d) k = ix4 b h r k :=
  funext fun a => Fin.ext (by match a with | ⟨0, _⟩ => rfl | ⟨1, _⟩ => rfl | ⟨2, _⟩ => rfl | ⟨3, _⟩ => rfl)
theorem ridx14 (b : Fin 2) (h : Fin 16) (r : Fin 2048) (d : Fin 64) (k : Fin 2048) :
    ridx_main_v14 (ix4 b h r d) k = ix4 b h k d :=
  funext fun a => Fin.ext (by match a with | ⟨0, _⟩ => rfl | ⟨1, _⟩ => rfl | ⟨2, _⟩ => rfl | ⟨3, _⟩ => rfl)

/-! ## The stages -/

/-- The scaled product of queries and keys at `(b, h, r, s)`: the score of key `s`. -/
theorem scaled_apply (b : Fin 2) (h : Fin 16) (r s : Fin 2048) :
    val_main_v2 (F := Ideal) x0 x1 (ix4 b h r s) = scores x0 x1 b h r s := by
  rw [val_main_v2_apply, val_main_v0_apply, val_main_v1_apply, val_main_cst_apply]
  simp only [lidx0, ridx0, Ideal.mulf_def, Ideal.ofBits_def]
  rfl

/-- The key axis is the one reduced. -/
theorem reduces_keys : S2x16x2048x2048.Reduces [3] S2x16x2048 := by decide

/-- Inserting key `k` into `(b, h, r)`. -/
theorem lift_keys (b : Fin 2) (h : Fin 16) (r : Fin 2048) (k : Fin 2048) :
    reduces_keys.lift (ix3 b h r) k = ix4 b h r k :=
  funext fun a => Fin.ext (by match a with | ⟨0, _⟩ => rfl | ⟨1, _⟩ => rfl | ⟨2, _⟩ => rfl | ⟨3, _⟩ => rfl)

/-- The row's largest score: the reduce the generated reading leaves, as the running maximum from `-∞`; the
    `maximum` with `-∞` jax puts after it changes nothing. -/
theorem largest_apply (b : Fin 2) (h : Fin 16) (r : Fin 2048) :
    val_main_v5 (F := Ideal) x0 x1 (ix3 b h r) = top (scores x0 x1 b h r) := by
  rw [val_main_v5_apply, val_main_v4_apply, val_main_cst_1_apply]
  unfold val_main_v3
  rw [Host.reduce_eq_fold_single FloatOps.maximumf _ _ reducesTo_S2x16x2048x2048_S2x16x2048_d3 reduces_keys h_S_]
  rw [val_main_cst_0_apply]
  simp only [Ideal.ofBits_def, negInf_eq, Ideal.maximumf_def]
  rw [max_eq_right bot_le]
  unfold top
  refine congrArg (fun g : Fin 2048 → EReal => Finset.fold max (⊥ : EReal) g (Finset.univ : Finset (Fin 2048))) ?_
  funext k
  exact (congrArg (val_main_v2 (F := Ideal) x0 x1) (lift_keys b h r k)).trans (scaled_apply x0 x1 b h r k)

/-- The weight of key `s`. -/
theorem weight_apply (b : Fin 2) (h : Fin 16) (r s : Fin 2048) :
    val_main_v9 (F := Ideal) x0 x1 (ix4 b h r s) = weight (scores x0 x1 b h r) s := by
  rw [val_main_v9_apply, val_main_v8_apply, val_main_v7_apply, val_main_v6_apply, idx67, largest_apply, scaled_apply]
  rfl

/-- The weights' total, taken from `0`. -/
theorem total_apply (b : Fin 2) (h : Fin 16) (r : Fin 2048) :
    val_main_v10 (F := Ideal) x0 x1 (ix3 b h r) = mass (scores x0 x1 b h r) := by
  rw [val_main_v10_apply, val_main_cst_2_apply]
  simp only [idx10, weight_apply, Ideal.ofBits_def, Ideal.ofBits_zero_f32, zero_add]
  rfl

/-- The normalized weight of key `s`. -/
theorem normalized_apply (b : Fin 2) (h : Fin 16) (r s : Fin 2048) :
    val_main_v13 (F := Ideal) x0 x1 (ix4 b h r s) = Ideal.div (weight (scores x0 x1 b h r) s) (mass (scores x0 x1 b h r)) := by
  rw [val_main_v13_apply, val_main_v12_apply, val_main_v11_apply, idx1112, total_apply, weight_apply]
  rfl

/-- THE REFERENCE AT AN INDEX. -/
theorem result_apply (b : Fin 2) (h : Fin 16) (r : Fin 2048) (d : Fin 64) :
    val_main_v14 (F := Ideal) x0 x1 x2 (ix4 b h r d)
      = mixNormalized (scores x0 x1 b h r) (fun s => x2 (ix4 b h s d)) := by
  rw [val_main_v14_apply]
  simp only [lidx14, ridx14, normalized_apply]
  rfl

end Cert.AttnRef

end
-- ==== Proof.Dots.lean ====
/-
  The body's two matrix products, read at an index.

  The first contracts the 64 features of a query row with those of a key row (both operands carry the contracted axis
  last, so no transpose is materialized): entry `(p, s)` is `∑ k, l (p, k) · r (s, k)`. The second contracts the 2048 keys:
  entry `(p, d)` is `∑ k, l (p, k) · r (k, d)`. Both accumulate into a zero splat, which at the ideal values adds nothing.
  Each record's operand indices are read off axis by axis first, and the contraction's index type is carried to `Fin n`.
-/
import proofs.«406444_j84567906058715_3_alg».proof.Proof.Gen.KernelIdeal
import Idealize.ShloMosaic.Lib.ValueIdx
import Idealize.ShloMosaic.PureOps.Ideal.Laws

noncomputable section

namespace Cert.AttnKernel

open Cert.KernelIdeal Cert.KernelIdeal.Gen Idealize.ShloMosaic Idealize.ShloMosaic.ValueIdx

/-! ## Queries against keys -/

theorem lhs_qk_0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem lhs_qk_1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
theorem rhs_qk_0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem rhs_qk_1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

/-- Entry `(p, s)` of the scores' product: the query row `p` against the key row `s`, feature by feature. -/
theorem scoresDot_apply (l : FVec Ideal S1024x64 .bf16) (r : FVec Ideal S2048x64 .bf16) (p : Fin 1024) (s : Fin 2048) :
    matmul dot_S1024x64_S2048x64_S1024x2048_1_1_0_0_n_n none l r (constant (F := Ideal) S1024x2048 .f32 0x00000000#32) (ix2 p s)
      = ∑ k : Fin 64, l (ix2 p k) * r (ix2 s k) := by
  simp only [matmul]
  rw [Ideal.matmul_constant_zero_apply, ← Equiv.sum_comp (ValueIdx.contrEquiv1 dot_S1024x64_S2048x64_S1024x2048_1_1_0_0_n_n 64 rfl rfl).symm]
  refine Finset.sum_congr rfl fun k _ => ?_
  have hk := ValueIdx.contrEquiv1_symm_val dot_S1024x64_S2048x64_S1024x2048_1_1_0_0_n_n 64 rfl rfl k
  have el : dot_S1024x64_S2048x64_S1024x2048_1_1_0_0_n_n.lhsIdx (ix2 p s) ((ValueIdx.contrEquiv1 dot_S1024x64_S2048x64_S1024x2048_1_1_0_0_n_n 64 rfl rfl).symm k) = ix2 p k := funext fun a => Fin.ext (by
    match a with
    | ⟨0, _⟩ => exact lhs_qk_0 _ _
    | ⟨1, _⟩ => exact (lhs_qk_1 _ _).trans hk)
  have er : dot_S1024x64_S2048x64_S1024x2048_1_1_0_0_n_n.rhsIdx (ix2 p s) ((ValueIdx.contrEquiv1 dot_S1024x64_S2048x64_S1024x2048_1_1_0_0_n_n 64 rfl rfl).symm k) = ix2 s k := funext fun a => Fin.ext (by
    match a with
    | ⟨0, _⟩ => exact rhs_qk_0 _ _
    | ⟨1, _⟩ => exact (rhs_qk_1 _ _).trans hk)
  rw [el, er]

/-! ## Weights against values -/

theorem lhs_pv_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem lhs_pv_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem rhs_pv_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem rhs_pv_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- Entry `(p, d)` of the mixture's product: row `p` of the weights against column `d` of the values, key by key. -/
theorem mixDot_apply (l : FVec Ideal S1024x2048 .bf16) (r : FVec Ideal S2048x64 .bf16) (p : Fin 1024) (d : Fin 64) :
    matmul dot_S1024x2048_S2048x64_S1024x64_1_0_0_1_n_n none l r (constant (F := Ideal) S1024x64 .f32 0x00000000#32) (ix2 p d)
      = ∑ k : Fin 2048, l (ix2 p k) * r (ix2 k d) := by
  simp only [matmul]
  rw [Ideal.matmul_constant_zero_apply, ← Equiv.sum_comp (ValueIdx.contrEquiv1 dot_S1024x2048_S2048x64_S1024x64_1_0_0_1_n_n 2048 rfl rfl).symm]
  refine Finset.sum_congr rfl fun k _ => ?_
  have hk := ValueIdx.contrEquiv1_symm_val dot_S1024x2048_S2048x64_S1024x64_1_0_0_1_n_n 2048 rfl rfl k
  have el : dot_S1024x2048_S2048x64_S1024x64_1_0_0_1_n_n.lhsIdx (ix2 p d) ((ValueIdx.contrEquiv1 dot_S1024x2048_S2048x64_S1024x64_1_0_0_1_n_n 2048 rfl rfl).symm k) = ix2 p k := funext fun a => Fin.ext (by
    match a with
    | ⟨0, _⟩ => exact lhs_pv_0 _ _
    | ⟨1, _⟩ => exact (lhs_pv_1 _ _).trans hk)
  have er : dot_S1024x2048_S2048x64_S1024x64_1_0_0_1_n_n.rhsIdx (ix2 p d) ((ValueIdx.contrEquiv1 dot_S1024x2048_S2048x64_S1024x64_1_0_0_1_n_n 2048 rfl rfl).symm k) = ix2 k d := funext fun a => Fin.ext (by
    match a with
    | ⟨0, _⟩ => exact (rhs_pv_0 _ _).trans hk
    | ⟨1, _⟩ => exact rhs_pv_1 _ _)
  rw [el, er]

end Cert.AttnKernel

end
-- ==== Proof.Payload.lean ====
/-
  The body's result at an index. At a grid point the body holds one block of 1024 query rows and one head's whole
  keys and values; entry `(0, p, d)` of what it stores is one head's attention for query row `p` in the arrangement
  "scale the query, divide the mixture": the scores of row `p` (scaled feature by feature) against every key row, the
  largest taken from `-∞` along the key axis, each weight `exp` of the distance below it, the weights' total along the
  same axis, and the weights' mixture of column `d` of the values divided once by that total.
  The body's intermediate vectors are named here one by one, in the body's order, and each is read at an index from
  the ones before it; the changes of float format between them are the identity on the extended reals.
-/
import proofs.«406444_j84567906058715_3_alg».proof.Proof.Gen.KernelIdeal.Skeleton
import proofs.«406444_j84567906058715_3_alg».proof.Proof.Dots
import proofs.«406444_j84567906058715_3_alg».proof.Proof.Softmax
import proofs.«406444_j84567906058715_3_alg».proof.Proof.Consts
import Idealize.ShloMosaic.Lib.ValueLayout
import Idealize.ShloMosaic.Lib.Pipeline.Value

noncomputable section

namespace Cert.AttnKernel

open Cert.KernelIdeal Cert.KernelIdeal.Gen Idealize.ShloMosaic Idealize.ShloMosaic.ValueIdx
open Cert.Attention

variable (x0 : S1x1024x64.Idx → EReal) (x1 x2 : S1x2048x64.Idx → EReal)

/-- The scale, as the kernel spells it. -/
abbrev scale : EReal := Ideal.ofBits .f32 0x3E000000#32

/-! ## The body's vectors, in its order -/

/-- The block's query rows, scaled. -/
def queries : FVec Ideal S1024x64 .bf16 :=
  truncf .bf16 (mulf (shapeCast S1024x64 x0 shapeCasts_S1x1024x64_S1024x64) (broadcast S1024x64 (Scalar.ofBits .f32 0x3E000000#32))) bitsLt_bf16_f32
/-- The head's key rows. -/
def keys : FVec Ideal S2048x64 .bf16 := truncf .bf16 (shapeCast S2048x64 x1 shapeCasts_S1x2048x64_S2048x64) bitsLt_bf16_f32
/-- The head's value rows. -/
def values : FVec Ideal S2048x64 .bf16 := truncf .bf16 (shapeCast S2048x64 x2 shapeCasts_S1x2048x64_S2048x64) bitsLt_bf16_f32
/-- Every query row against every key row. -/
def scoreMat : FVec Ideal S1024x2048 .f32 :=
  matmul dot_S1024x64_S2048x64_S1024x2048_1_1_0_0_n_n none (queries x0) (keys x1) (constant S1024x2048 .f32 0x00000000#32)
/-- Each row's largest score. -/
def rowTop : FVec Ideal S1024 .f32 :=
  multiReduction .maximumf [1] S1024 (scoreMat x0 x1) 0xFF800000#32 reduces_S1024x2048_S1024 (.inl rfl) rfl
/-- The weights. -/
def weights : FVec Ideal S1024x2048 .f32 :=
  exp (subf (scoreMat x0 x1) (broadcastTo S1024x2048 (shapeCast S1024x1 (rowTop x0 x1) shapeCasts_S1024_S1024x1) broadcasts_S1024x1_S1024x2048))
/-- Each row's total weight. -/
def totals : FVec Ideal S1024 .f32 :=
  multiReduction .add [1] S1024 (weights x0 x1) 0x00000000#32 reduces_S1024x2048_S1024 (.inl rfl) rfl
/-- The weights' mixture of the values. -/
def mixed : FVec Ideal S1024x64 .f32 :=
  matmul dot_S1024x2048_S2048x64_S1024x64_1_0_0_1_n_n none (truncf .bf16 (weights x0 x1) bitsLt_bf16_f32) (values x2) (constant S1024x64 .f32 0x00000000#32)

/-- The stored value is the mixture over the totals, as a block with a leading unit axis. -/
theorem payload_eq : k0_pay1 (F := Ideal) x0 x1 x2
    = shapeCast S1x1024x64 (divf (mixed x0 x1 x2) (broadcastTo S1024x64 (shapeCast S1024x1 (totals x0 x1) shapeCasts_S1024_S1024x1) broadcasts_S1024x1_S1024x64)) shapeCasts_S1024x64_S1x1024x64 := rfl

/-! ## The layout steps between them -/

/-- A vector as a column reads its entry. -/
theorem column_apply (v : FVec Ideal S1024 .f32) (p : Fin 1024) :
    shapeCast S1024x1 v shapeCasts_S1024_S1024x1 (ix2 p (0 : Fin 1)) = v (ix1 p) :=
  shapeCast_apply v _ _ _ (by
    rw [Shape.rowMajor_val_one, Shape.rowMajor_val_two]
    show p.val = p.val * 1 + 0
    omega)

/-- A column spread over the 2048 keys reads its row's entry. -/
theorem spreadKeys_apply (v : FVec Ideal S1024x1 .f32) (p : Fin 1024) (s : Fin 2048) :
    broadcastTo S1024x2048 v broadcasts_S1024x1_S1024x2048 (ix2 p s) = v (ix2 p (0 : Fin 1)) := by
  refine broadcastTo_apply v _ (ix2 p s) (ix2 p (0 : Fin 1)) fun ax => ?_
  match ax with
  | ⟨0, _⟩ => show p.val = if (1024 : Nat) = 1 then 0 else p.val; rw [if_neg (by decide)]
  | ⟨1, _⟩ => show 0 = if (1 : Nat) = 1 then 0 else s.val; rw [if_pos rfl]

/-- A column spread over the 64 features reads its row's entry. -/
theorem spreadFeatures_apply (v : FVec Ideal S1024x1 .f32) (p : Fin 1024) (d : Fin 64) :
    broadcastTo S1024x64 v broadcasts_S1024x1_S1024x64 (ix2 p d) = v (ix2 p (0 : Fin 1)) := by
  refine broadcastTo_apply v _ (ix2 p d) (ix2 p (0 : Fin 1)) fun ax => ?_
  match ax with
  | ⟨0, _⟩ => show p.val = if (1024 : Nat) = 1 then 0 else p.val; rw [if_neg (by decide)]
  | ⟨1, _⟩ => show 0 = if (1 : Nat) = 1 then 0 else d.val; rw [if_pos rfl]

/-- Putting key `k` back into row `p`. -/
theorem lift_row (p : Fin 1024) (k : Fin 2048) : reduces_S1024x2048_S1024.lift (ix1 p) k = ix2 p k :=
  funext fun a => Fin.ext (by match a with | ⟨0, _⟩ => rfl | ⟨1, _⟩ => rfl)

/-! ## Each vector at an index -/

theorem queries_apply (p : Fin 1024) (k : Fin 64) : queries x0 (ix2 p k) = x0 (ix3 (0 : Fin 1) p k) * scale := by
  show shapeCast S1024x64 x0 shapeCasts_S1x1024x64_S1024x64 (ix2 p k) * _ = _
  rw [shapeCast_1ab_ab_apply]
  rfl

theorem keys_apply (s : Fin 2048) (k : Fin 64) : keys x1 (ix2 s k) = x1 (ix3 (0 : Fin 1) s k) := by
  show shapeCast S2048x64 x1 shapeCasts_S1x2048x64_S2048x64 (ix2 s k) = _
  rw [shapeCast_1ab_ab_apply]

theorem values_apply (s : Fin 2048) (d : Fin 64) : values x2 (ix2 s d) = x2 (ix3 (0 : Fin 1) s d) := by
  show shapeCast S2048x64 x2 shapeCasts_S1x2048x64_S2048x64 (ix2 s d) = _
  rw [shapeCast_1ab_ab_apply]

/-- Row `p`'s scores against the head's keys, the scale on the query's features. -/
abbrev rowScores (p : Fin 1024) : Fin 2048 → EReal :=
  scoreIn scale (fun k => x0 (ix3 (0 : Fin 1) p k)) (fun s k => x1 (ix3 (0 : Fin 1) s k))

theorem scoreMat_apply (p : Fin 1024) (s : Fin 2048) : scoreMat x0 x1 (ix2 p s) = rowScores x0 x1 p s := by
  unfold scoreMat
  rw [scoresDot_apply]
  simp only [queries_apply, keys_apply]
  rfl

theorem rowTop_apply (p : Fin 1024) : rowTop x0 x1 (ix1 p) = top (rowScores x0 x1 p) := by
  refine (Ideal.multiReduction_maximumf_single (scoreMat x0 x1) 0xFF800000#32 reduces_S1024x2048_S1024 (.inl rfl) rfl (ix1 p)).trans ?_
  simp only [Ideal.ofBits_def, negInf_eq]
  unfold top
  refine congrArg (fun g : Fin 2048 → EReal => Finset.fold max (⊥ : EReal) g (Finset.univ : Finset (Fin 2048))) ?_
  funext k
  exact (congrArg (scoreMat x0 x1) (lift_row p k)).trans (scoreMat_apply x0 x1 p k)

theorem weights_apply (p : Fin 1024) (s : Fin 2048) : weights x0 x1 (ix2 p s) = weight (rowScores x0 x1 p) s := by
  show Ideal.exp (scoreMat x0 x1 (ix2 p s)
    - broadcastTo S1024x2048 (shapeCast S1024x1 (rowTop x0 x1) shapeCasts_S1024_S1024x1) broadcasts_S1024x1_S1024x2048 (ix2 p s)) = _
  rw [spreadKeys_apply, column_apply, rowTop_apply, scoreMat_apply]
  rfl

theorem totals_apply (p : Fin 1024) : totals x0 x1 (ix1 p) = mass (rowScores x0 x1 p) := by
  refine (Ideal.multiReduction_add_single (weights x0 x1) 0x00000000#32 reduces_S1024x2048_S1024 (.inl rfl) rfl (ix1 p)).trans ?_
  show (∑ k : Fin 2048, weights x0 x1 (reduces_S1024x2048_S1024.lift (ix1 p) k)) = ∑ k : Fin 2048, weight (rowScores x0 x1 p) k
  exact Finset.sum_congr rfl fun k _ => (congrArg (weights x0 x1) (lift_row p k)).trans (weights_apply x0 x1 p k)

theorem mixed_apply (p : Fin 1024) (d : Fin 64) :
    mixed x0 x1 x2 (ix2 p d) = ∑ s : Fin 2048, weight (rowScores x0 x1 p) s * x2 (ix3 (0 : Fin 1) s d) := by
  unfold mixed
  rw [mixDot_apply]
  refine Finset.sum_congr rfl fun s _ => ?_
  rw [values_apply]
  exact congrArg (· * _) (weights_apply x0 x1 p s)

/-- THE BODY'S RESULT AT AN INDEX. -/
theorem payload_apply (u : Fin 1) (p : Fin 1024) (d : Fin 64) :
    k0_pay1 (F := Ideal) x0 x1 x2 (ix3 u p d)
      = normalizeMixed (rowScores x0 x1 p) (fun s => x2 (ix3 (0 : Fin 1) s d)) := by
  rw [payload_eq, shapeCast_ab_1ab_apply]
  show Ideal.div (mixed x0 x1 x2 (ix2 p d))
    (broadcastTo S1024x64 (shapeCast S1024x1 (totals x0 x1) shapeCasts_S1024_S1024x1) broadcasts_S1024x1_S1024x64 (ix2 p d)) = _
  rw [spreadFeatures_apply, column_apply, totals_apply, mixed_apply]
  rfl

end Cert.AttnKernel

end
-- ==== Proof.Blocks.lean ====
/-
  From the blocks to the array. The region's output (32 merged heads × 2048 query rows × 64 features) is written one
  block of 1024 query rows at a time, at the 32 × 2 grid points `(head, half)`; the point reads the matching block of
  the merged queries and the head's whole keys and values. So every block is the restriction to its rows of ONE
  function of the three merged arrays — entry `(g, r, d)` is head `g`'s attention for query row `r` at feature `d`, in the
  arrangement "scale the query, divide the mixture" — and the 64 blocks tile the array: after the run the array is
  that function.
-/
import proofs.«406444_j84567906058715_3_alg».proof.Proof.Gen.KernelIdeal.Frame
import proofs.«406444_j84567906058715_3_alg».proof.Proof.Payload
import Idealize.ShloMosaic.Lib.Pipeline.Value

set_option maxRecDepth 16384

noncomputable section

namespace Cert.AttnKernel

open Cert.KernelIdeal Cert.KernelIdeal.Gen Idealize.ShloMosaic Idealize.ShloMosaic.TcCoe Idealize.ShloMosaic.ValueIdx
open Idealize.SL.Sem
open Idealize.ShloMosaic.Pipeline (Dat)
open Cert.Attention

/-! ## The array's function -/

/-- Head `g`'s attention for query row `r` at feature `d`, of the merged arrays. -/
def headsAttnAt (Aq Ak Av : S32x2048x64.Idx → EReal) (g : Fin 32) (r : Fin 2048) (d : Fin 64) : EReal :=
  normalizeMixed (scoreIn scale (fun k => Aq (ix3 g r k)) (fun s k => Ak (ix3 g s k))) (fun s => Av (ix3 g s d))

/-- The same as one function of the index. -/
def headsAttn (Aq Ak Av : S32x2048x64.Idx → EReal) : S32x2048x64.Idx → EReal := fun i =>
  headsAttnAt Aq Ak Av (i 0) (i 1) (i 2)

theorem headsAttn_ix3 (Aq Ak Av : S32x2048x64.Idx → EReal) (g : Fin 32) (r : Fin 2048) (d : Fin 64) :
    headsAttn Aq Ak Av (ix3 g r d) = headsAttnAt Aq Ak Av g r d := rfl

/-! ## One block -/

/-- A block whose query rows are rows `half · 1024 + p` of head `g` and whose keys and values are head `g`'s: the
    body's result at `(u, p, d)` is the array's function at `(g, half · 1024 + p, d)`. -/
theorem block_apply (Aq Ak Av : S32x2048x64.Idx → EReal) (X0 : S1x1024x64.Idx → EReal) (X1 X2 : S1x2048x64.Idx → EReal)
    (g : Fin 32) (half : Fin 2)
    (h0 : ∀ (p : Fin 1024) (k : Fin 64), X0 (ix3 (0 : Fin 1) p k) = Aq (ix3 g ⟨half.val * 1024 + p.val, by omega⟩ k))
    (h1 : ∀ (s : Fin 2048) (k : Fin 64), X1 (ix3 (0 : Fin 1) s k) = Ak (ix3 g s k))
    (h2 : ∀ (s : Fin 2048) (d : Fin 64), X2 (ix3 (0 : Fin 1) s d) = Av (ix3 g s d))
    (u : Fin 1) (p : Fin 1024) (d : Fin 64) :
    k0_pay1 (F := Ideal) X0 X1 X2 (ix3 u p d) = headsAttnAt Aq Ak Av g ⟨half.val * 1024 + p.val, by omega⟩ d := by
  rw [payload_apply]
  unfold headsAttnAt
  simp only [rowScores, h0, h1, h2]

/-- The same with the block's index and the array's index free, related coordinate by coordinate. -/
theorem block_apply_of (Aq Ak Av : S32x2048x64.Idx → EReal) (X0 : S1x1024x64.Idx → EReal) (X1 X2 : S1x2048x64.Idx → EReal)
    (g : Fin 32) (half : Fin 2)
    (h0 : ∀ (p : Fin 1024) (k : Fin 64), X0 (ix3 (0 : Fin 1) p k) = Aq (ix3 g ⟨half.val * 1024 + p.val, by omega⟩ k))
    (h1 : ∀ (s : Fin 2048) (k : Fin 64), X1 (ix3 (0 : Fin 1) s k) = Ak (ix3 g s k))
    (h2 : ∀ (s : Fin 2048) (d : Fin 64), X2 (ix3 (0 : Fin 1) s d) = Av (ix3 g s d))
    (y : S1x1024x64.Idx) (i : S32x2048x64.Idx)
    (hi0 : (i 0).val = g.val) (hi1 : (i 1).val = half.val * 1024 + (y 1).val) (hi2 : (i 2).val = (y 2).val) :
    k0_pay1 (F := Ideal) X0 X1 X2 y = headsAttn Aq Ak Av i := by
  obtain ⟨u, p, d, rfl⟩ : ∃ (u : Fin 1) (p : Fin 1024) (d : Fin 64), y = ix3 u p d := ⟨y 0, y 1, y 2, eq_ix3 y⟩
  have hb : half.val * 1024 + p.val < 2048 := by have := half.isLt; have := p.isLt; omega
  obtain ⟨i0, i1, i2, rfl⟩ : ∃ (i0 : Fin 32) (i1 : Fin 2048) (i2 : Fin 64), i = ix3 i0 i1 i2 := ⟨i 0, i 1, i 2, eq_ix3 i⟩
  obtain rfl : i0 = g := Fin.ext hi0
  obtain rfl : i1 = ⟨half.val * 1024 + p.val, hb⟩ := Fin.ext hi1
  obtain rfl : i2 = d := Fin.ext hi2
  rw [headsAttn_ix3]
  exact block_apply Aq Ak Av X0 X1 X2 i0 half h0 h1 h2 u p i2

/-! ## The grid's index maps, decided over its 64 points -/

variable (m : (ℓ : Loc nD τ sig) → Buf (Elt Ideal) ℓ)

theorem hz : (![0, 0, 0] : Fin 3 → Nat) = fun _ => 0 := funext fun a => by fin_cases a <;> rfl

/-- The query window moves with the output window; the key and value windows follow its head and stay at the head's
    first row; no window moves along the features; the output's block indices stay in their ranges. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) < 32 ∧ win0_3.index t (1 : Fin 3) < 2 ∧ win0_3.index t (2 : Fin 3) = 0 :=
  (by decide +kernel : ∀ t : Fin grid0.N, _)

/-- Every (head, half) is some point's output block. -/
theorem idx_onto : ∀ (q0 : Fin 32) (q1 : Fin 2), ∃ t : Fin cfg0.N, win0_3.index t = ![q0.val, q1.val, 0] :=
  (by decide +kernel : ∀ (q0 : Fin 32) (q1 : Fin 2), ∃ t : Fin grid0.N, win0_3.index t = ![q0.val, q1.val, 0])

/-! ## What a point writes back, the cover, the array -/

/-- WHAT POINT `t` WRITES BACK is block `t` of the array's function of the merged arrays as the region finds them. -/
theorem flushed_eq (c : Dev nD) (t : Fin cfg0.N) :
    (dats m 0 c).flushed 3 t
      = ((cfg0.win 3).blk t).view.read (Elt Ideal) (headsAttn (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S1x1024x64) hz, View.ld_unit_zero (S := S1x2048x64) hz]
  obtain ⟨e00, e01, e02, e10, e11, e12, e20, e21, e22, b0, b1, e32⟩ := idx_facts t
  funext j
  show k0_pay1 (F := Ideal) (iblk m c 0 t) (iblk m c 1 t) (iblk m c 2 t) j
    = headsAttn (V m c main_v0) (V m c main_v1) (V m c main_v2) (((cfg0.win 3).blk t).view.emb j)
  refine block_apply_of (V m c main_v0) (V m c main_v1) (V m c main_v2) (iblk m c 0 t) (iblk m c 1 t) (iblk m c 2 t)
    ⟨win0_3.index t (0 : Fin 3), b0⟩ ⟨win0_3.index t (1 : Fin 3), b1⟩ ?_ ?_ ?_ j (((cfg0.win 3).blk t).view.emb j) ?_ ?_ ?_
  · intro p k
    show V m c main_v0 (((cfg0.win 0).blk t).view.emb (ix3 (0 : Fin 1) p k)) = _
    refine congrArg (V m c main_v0) (funext fun a => Fin.ext ?_)
    match a with
    | ⟨0, _⟩ => show win0_0.index t (0 : Fin 3) * 1 + 1 * 0 = win0_3.index t (0 : Fin 3); omega
    | ⟨1, _⟩ => show win0_0.index t (1 : Fin 3) * 1024 + 1 * p.val = win0_3.index t (1 : Fin 3) * 1024 + p.val; omega
    | ⟨2, _⟩ => show win0_0.index t (2 : Fin 3) * 64 + 1 * k.val = k.val; omega
  · intro s k
    show V m c main_v1 (((cfg0.win 1).blk t).view.emb (ix3 (0 : Fin 1) s k)) = _
    refine congrArg (V m c main_v1) (funext fun a => Fin.ext ?_)
    match a with
    | ⟨0, _⟩ => show win0_1.index t (0 : Fin 3) * 1 + 1 * 0 = win0_3.index t (0 : Fin 3); omega
    | ⟨1, _⟩ => show win0_1.index t (1 : Fin 3) * 2048 + 1 * s.val = s.val; omega
    | ⟨2, _⟩ => show win0_1.index t (2 : Fin 3) * 64 + 1 * k.val = k.val; omega
  · intro s d
    show V m c main_v2 (((cfg0.win 2).blk t).view.emb (ix3 (0 : Fin 1) s d)) = _
    refine congrArg (V m c main_v2) (funext fun a => Fin.ext ?_)
    match a with
    | ⟨0, _⟩ => show win0_2.index t (0 : Fin 3) * 1 + 1 * 0 = win0_3.index t (0 : Fin 3); omega
    | ⟨1, _⟩ => show win0_2.index t (1 : Fin 3) * 2048 + 1 * s.val = s.val; omega
    | ⟨2, _⟩ => show win0_2.index t (2 : Fin 3) * 64 + 1 * d.val = d.val; omega
  · show win0_3.index t (0 : Fin 3) * 1 + 1 * (j 0).val = win0_3.index t (0 : Fin 3)
    have hj : (j 0).val < 1 := (j 0).isLt
    omega
  · show win0_3.index t (1 : Fin 3) * 1024 + 1 * (j 1).val = win0_3.index t (1 : Fin 3) * 1024 + (j 1).val
    omega
  · show win0_3.index t (2 : Fin 3) * 64 + 1 * (j 2).val = (j 2).val
    omega

/-- An index of the array is in point `t`'s block iff each coordinate is in the block's range on its axis. -/
theorem mem_blk (t : Fin cfg0.N) (i : S32x2048x64.Idx) :
    i ∈ ((cfg0.win 3).blk t).view.set ↔ ∀ a : Fin 3, win0_3.index t a * S1x1024x64.size a ≤ (i a).val
      ∧ (i a).val < win0_3.index t a * S1x1024x64.size a + S1x1024x64.size a := by
  show i ∈ ((View.whole main_v3).slice (win0_3.rect t)).set ↔ _
  rw [View.set_slice_whole, Rect.mem_set_unit]
  exact Iff.rfl

/-- The 64 blocks tile the array: row `r` of head `g` is in the block of point `(g, r / 1024)`. -/
theorem cover (i : S32x2048x64.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- THE ARRAY after the run: the array's function of the merged arrays as the region finds them. -/
theorem final (c : Dev nD) :
    (dats m 0 c).arrAt 3 cfg0.N = headsAttn (V m c main_v0) (V m c main_v1) (V m c main_v2) :=
  (dats m 0 c).arrAt_eq_of_cover 3 _ (fun t _ => flushed_eq m c t) cover

end Cert.AttnKernel

end
-- ==== Proof.KernelRun.lean ====
/-
  The kernel's run, with its result named. Around the region the program only re-lays arrays: before it, batch and head
  are merged into one axis of 32 (`(b, h) ↦ 16 b + h`, row-major) for each of the three arguments; after it, the
  region's array is split back. So entry `(b, h, r, d)` of the result is the region's array at `(16 b + h, r, d)`, whose
  merged operands at `(16 b + h, ·, ·)` are the arguments at `(b, h, ·, ·)`: head `(b, h)`'s attention for query row `r` at
  feature `d`, in the arrangement "scale the query, divide the mixture", of the argument arrays themselves.
-/
import proofs.«406444_j84567906058715_3_alg».proof.Proof.Blocks
import Idealize.ShloMosaic.Lib.StableHlo.Run

set_option maxRecDepth 16384

noncomputable section

namespace Cert.AttnKernel

open Cert.KernelIdeal Cert.KernelIdeal.Gen Idealize.ShloMosaic Idealize.ShloMosaic.TcCoe Idealize.ShloMosaic.ValueIdx
open Idealize.SL.Sem Idealize.ShloMosaic.StableHlo
open Cert.Attention

/-! ## Merging and splitting the head axes -/

/-- Batch and head merged into one axis. -/
def merged (X : S2x16x2048x64.Idx → EReal) : S32x2048x64.Idx → EReal :=
  shapeCast S32x2048x64 X shapeCasts_S2x16x2048x64_S32x2048x64

/-- The merged axis split back. -/
def split (A : S32x2048x64.Idx → EReal) : S2x16x2048x64.Idx → EReal :=
  shapeCast S2x16x2048x64 A shapeCasts_S32x2048x64_S2x16x2048x64

/-- Head `(b, h)` is merged head `16 b + h`. -/
abbrev headOf (b : Fin 2) (h : Fin 16) : Fin 32 := ⟨b.val * 16 + h.val, by omega⟩

theorem merged_apply (X : S2x16x2048x64.Idx → EReal) (b : Fin 2) (h : Fin 16) (r : Fin 2048) (k : Fin 64) :
    merged X (ix3 (headOf b h) r k) = X (ix4 b h r k) :=
  shapeCast_apply X _ _ _ (by
    rw [Shape.rowMajor_val_four, Shape.rowMajor_val_three]
    show ((b.val * 16 + h.val) * 2048 + r.val) * 64 + k.val = ((b.val * 16 + h.val) * 2048 + r.val) * 64 + k.val
    rfl)

theorem split_apply (A : S32x2048x64.Idx → EReal) (b : Fin 2) (h : Fin 16) (r : Fin 2048) (d : Fin 64) :
    split A (ix4 b h r d) = A (ix3 (headOf b h) r d) :=
  shapeCast_apply A _ _ _ (by
    rw [Shape.rowMajor_val_four, Shape.rowMajor_val_three]
    show ((b.val * 16 + h.val) * 2048 + r.val) * 64 + d.val = ((b.val * 16 + h.val) * 2048 + r.val) * 64 + d.val
    rfl)

/-! ## The arrays the region finds, and the buffer the program returns -/

variable (m : (ℓ : Loc nD τ sig) → Buf (Elt Ideal) ℓ) (ρ : Dev nD → PrngReg)

theorem V_main_v0 (c : Dev nD) :
    (V m c main_v0 : S32x2048x64.Idx → EReal) = merged (m ((c : Thread nD τ).loc main_arg0)) := by
  show StableHlo.after hostOps0 (fun b => m (c, b)) (Proc.devRef .tc main_v0) = _
  after_results
  rfl
theorem V_main_v1 (c : Dev nD) :
    (V m c main_v1 : S32x2048x64.Idx → EReal) = merged (m ((c : Thread nD τ).loc main_arg1)) := by
  show StableHlo.after hostOps0 (fun b => m (c, b)) (Proc.devRef .tc main_v1) = _
  after_results
  rfl
theorem V_main_v2 (c : Dev nD) :
    (V m c main_v2 : S32x2048x64.Idx → EReal) = merged (m ((c : Thread nD τ).loc main_arg2)) := by
  show StableHlo.after hostOps0 (fun b => m (c, b)) (Proc.devRef .tc main_v2) = _
  after_results
  rfl

/-- Head `(b, h)`'s attention for query row `r` at feature `d`, of the argument arrays, the scale on the query and the
    division on the mixture. -/
def attnIn (Q K W : S2x16x2048x64.Idx → EReal) : S2x16x2048x64.Idx → EReal := fun i =>
  normalizeMixed (scoreIn scale (fun k => Q (ix4 (i 0) (i 1) (i 2) k)) (fun s k => K (ix4 (i 0) (i 1) s k)))
    (fun s => W (ix4 (i 0) (i 1) s (i 3)))

/-- The region's array split back is that function of the arguments. -/
theorem split_headsAttn (Q K W : S2x16x2048x64.Idx → EReal) :
    split (headsAttn (merged Q) (merged K) (merged W)) = attnIn Q K W := by
  funext i
  obtain ⟨b, h, r, d, rfl⟩ : ∃ (b : Fin 2) (h : Fin 16) (r : Fin 2048) (d : Fin 64), i = ix4 b h r d :=
    ⟨i 0, i 1, i 2, i 3, eq_ix4 i⟩
  rw [split_apply, headsAttn_ix3]
  unfold headsAttnAt
  simp only [merged_apply]
  rfl

/-- What the lines after the region leave in the returned buffer. -/
theorem tail_main_v4 (c : Dev nD) :
    (Pipeline.afterTail₀ cfgs (dats m) 0 (V0 m) [hostOps1] c main_v4 : S2x16x2048x64.Idx → EReal)
      = attnIn (m ((c : Thread nD τ).loc main_arg0)) (m ((c : Thread nD τ).loc main_arg1)) (m ((c : Thread nD τ).loc main_arg2)) := by
  have e : (Pipeline.withArrays spec0 c (V0 m c) (fun w => (dats m 0 c).arrAt w cfg0.N) (Proc.devRef .tc main_v3) : S32x2048x64.Idx → EReal)
      = headsAttn (V m c main_v0) (V m c main_v1) (V m c main_v2) :=
    (Pipeline.withArrays_arr spec0 launch0.win.arr_inj c (V0 m c) (fun w => (dats m 0 c).arrAt w cfg0.N) 3).trans (final m c)
  rw [V_main_v0, V_main_v1, V_main_v2] at e
  rw [← split_headsAttn, ← e]
  unfold Pipeline.afterTail₀
  show StableHlo.after hostOps1 _ (Proc.devRef .tc main_v4) = _
  after_results
  rfl

/-! ## The run -/

/-- THE KERNEL'S RUN: every weakly fair execution terminates with the returned buffer at `attnIn` of the arguments and
    the arguments unchanged. -/
theorem run : θ_run defs (onTc (τ := τ) (main (F := Ideal))) ⟨m, fun _ => 0, ρ⟩ (fun r => ∀ c : Dev nD,
      r.2.mem ((c.tc : Thread nD τ).loc main_v4)
        = attnIn (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (tail_main_v4 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.AttnKernel

end
-- ==== Proof.Finite.lean ====
/-
  What the precondition gives: every entry of the three arguments is a real number. The precondition is the
  conjunction, argument by argument, of "every entry's absolute value is below `+∞`"; on the extended reals
  `|x| = max x (-x)` is below `+∞` exactly when `x` is neither infinity.
-/
import proofs.«406444_j84567906058715_3_alg».proof.Proof.Gen.Pre_finite_inputs
import Idealize.ShloMosaic.Lib.ReduceAll
import Idealize.ShloMosaic.Lib.ValueIdx
import Idealize.ShloMosaic.PureOps.Ideal.Laws

noncomputable section

namespace Cert.AttnFinite

open Idealize.ShloMosaic Cert.Pre_finite_inputs Cert.Pre_finite_inputs.Gen

/-- `0x7F800000` is `+∞`. -/
theorem posInf_eq : Ideal.ofBits .f32 0x7F800000#32 = (⊤ : EReal) := by
  simp [Ideal.ofBits, Ideal.ieee]

/-- An extended real whose absolute value compares below `+∞` is a real. -/
theorem real_of_abs_lt (x : EReal) (h : Ideal.cmp .olt (max x (-x)) ⊤ = 1#1) : ∃ r : ℝ, x = (r : EReal) := by
  have hlt : max x (-x) < ⊤ := by
    by_contra hn
    have h0 : Ideal.cmp .olt (max x (-x)) ⊤ = 0#1 := by simp [Ideal.cmp, hn]
    rw [h0] at h
    exact absurd h (by decide)
  induction x using EReal.rec with
  | bot => simp at hlt
  | top => simp at hlt
  | coe r => exact ⟨r, rfl⟩

/-- The precondition's result has one index. -/
instance : Subsingleton S_.Idx := ⟨fun a b => funext fun d => d.elim0⟩

/-- One argument's conjunct: if `all (|X| < +∞)` holds, every entry of `X` is a real. -/
theorem real_of_all (X : S2x16x2048x64.Idx → EReal)
    (h : Host.reduce IntOp.andi
        (cmpf .olt (Host.absf (F := Ideal) (φ := .f32) X)
          (broadcastInDim S2x16x2048x64 ![] bcast_S_S2x16x2048x64 (constant (F := Ideal) S_ .f32 0x7F800000#32)))
        (constantI S_ 1 1#1) reducesTo_S2x16x2048x64_S_d0_1_2_3 h_S_ ValueIdx.ix0 = 1#1)
    (i : S2x16x2048x64.Idx) : ∃ r : ℝ, X i = (r : EReal) := by
  have hi := Host.reduce_andi_all _ _ _ _ _ h i
  refine real_of_abs_lt (X i) ?_
  rw [← posInf_eq]
  exact hi

/-- THE PRECONDITION READ: all three arguments are real-valued. -/
theorem real_of_pre (Q K W : S2x16x2048x64.Idx → EReal)
    (h : Cert.Pre_finite_inputs.fn (F := Ideal) Q K W = fun _ => 1#1) :
    (∀ i, ∃ r : ℝ, Q i = (r : EReal)) ∧ (∀ i, ∃ r : ℝ, K i = (r : EReal)) ∧ (∀ i, ∃ r : ℝ, W i = (r : EReal)) := by
  have h0 := congrFun h ValueIdx.ix0
  dsimp only [fn] at h0
  obtain ⟨hqk, hw⟩ := IntOp.andi_eq_one.mp h0
  obtain ⟨hq, hk⟩ := IntOp.andi_eq_one.mp hqk
  exact ⟨real_of_all Q hq, real_of_all K hk, real_of_all W hw⟩

end Cert.AttnFinite

end
-- ==== Proof.lean ====
/-
  The certificate of one scaled dot-product attention kernel against its jnp reference, over the extended reals.

  The kernel merges batch and head, and at each of 32 × 2 grid points holds 1024 query rows and one head's keys and
  values: it scales the queries by 1/8, takes the scores against every key, subtracts each row's largest score, takes
  `exp`, sums each row's weights, mixes the values with the UNNORMALIZED weights and divides the mixture once by the
  row's total. The reference scales the scores after the contraction and divides every weight before mixing. Changes of
  float format are the identity at the ideal values, a matrix product into a zero accumulator is a plain sum, and both
  programs spell the scale, `-∞` and `0` with the same words; what is left between them are two laws of the reals —
  the scale moves across the contraction, the division across the mixture — which hold because the precondition makes
  every input a real: then every score is real, so is the largest of a row's 2048, every weight is a positive real and
  their total a positive real.

  The frames are the generated ones (the reference's is its generated run with the result dropped); no operation was
  rewritten by the idealization, so there is nothing to preserve; the value claim names the common result — head
  `(b, h)`'s attention for row `r` at feature `d`, of the argument arrays — and reads both runs at it.
-/
import proofs.«406444_j84567906058715_3_alg».proof.Defs
import proofs.«406444_j84567906058715_3_alg».proof.Proof.Gen.Kernel
import proofs.«406444_j84567906058715_3_alg».proof.Proof.Gen.Kernel.Skeleton
import proofs.«406444_j84567906058715_3_alg».proof.Proof.Gen.Kernel.Launch
import proofs.«406444_j84567906058715_3_alg».proof.Proof.Gen.Kernel.Points
import proofs.«406444_j84567906058715_3_alg».proof.Proof.Gen.Kernel.Frame
import proofs.«406444_j84567906058715_3_alg».proof.Proof.Gen.KernelIdeal
import proofs.«406444_j84567906058715_3_alg».proof.Proof.Gen.KernelIdeal.Skeleton
import proofs.«406444_j84567906058715_3_alg».proof.Proof.Gen.KernelIdeal.Launch
import proofs.«406444_j84567906058715_3_alg».proof.Proof.Gen.KernelIdeal.Points
import proofs.«406444_j84567906058715_3_alg».proof.Proof.Gen.KernelIdeal.Frame
import proofs.«406444_j84567906058715_3_alg».proof.Proof.Gen.ReferenceIdeal
import proofs.«406444_j84567906058715_3_alg».proof.Proof.Gen.Pre_finite_inputs
import proofs.«406444_j84567906058715_3_alg».proof.Proof.Gen.ReferenceIdeal.Run
import proofs.«406444_j84567906058715_3_alg».proof.Proof.Gen.ReferenceIdeal.Read
import Idealize.ShloMosaic.Adequacy
import Idealize.ShloMosaic.Init
import proofs.«406444_j84567906058715_3_alg».proof.Proof.RefRead
import proofs.«406444_j84567906058715_3_alg».proof.Proof.KernelRun
import proofs.«406444_j84567906058715_3_alg».proof.Proof.Finite

noncomputable section

namespace Cert.Proof

open Idealize.ShloMosaic Idealize.ShloMosaic.TcCoe Idealize.ShloMosaic.ValueIdx Idealize.SL.Sem
open Cert.Attention

/-! ## The two arrangements agree on real inputs -/

/-- On real-valued arguments the kernel's function of them is the reference's last stage: index by index, the law
    that moves the scale across the contraction and the division across the mixture. -/
theorem attnIn_eq_reference (Q K W : Cert.KernelIdeal.S2x16x2048x64.Idx → EReal)
    (hQ : ∀ i, ∃ r : ℝ, Q i = (r : EReal)) (hK : ∀ i, ∃ r : ℝ, K i = (r : EReal)) (hW : ∀ i, ∃ r : ℝ, W i = (r : EReal)) :
    Cert.AttnKernel.attnIn Q K W = Cert.ReferenceIdeal.Read.val_main_v14 (F := Ideal) Q K W := by
  funext i
  obtain ⟨b, h, r, d, rfl⟩ : ∃ (b : Fin 2) (h : Fin 16) (r : Fin 2048) (d : Fin 64), i = ix4 b h r d :=
    ⟨i 0, i 1, i 2, i 3, eq_ix4 i⟩
  rw [Cert.AttnRef.result_apply]
  choose q hq using hQ
  choose k hk using hK
  choose w hw using hW
  show normalizeMixed (scoreIn (Ideal.ofBits .f32 0x3E000000#32) (fun k' => Q (ix4 b h r k')) (fun s k' => K (ix4 b h s k')))
      (fun s => W (ix4 b h s d))
    = mixNormalized (scoreOut (Ideal.ofBits .f32 0x3E000000#32) (fun k' => Q (ix4 b h r k')) (fun s k' => K (ix4 b h s k')))
      (fun s => W (ix4 b h s d))
  simp only [hq, hk, hw, scale_eq]
  exact normalizeMixed_scoreIn_eq (1 / 8) (fun k' => q (ix4 b h r k')) (fun s k' => k (ix4 b h s k')) (fun s => w (ix4 b h s d))

/-! ## The claims -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with head `(b, h)`'s attention of the argument arrays in their result buffers. -/
theorem algebraic : Cert.algebraic_KernelIdeal_ReferenceIdeal := by
  intro m ρ m' ρ' hpre hagree
  refine ⟨fun c => Cert.AttnKernel.attnIn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.AttnKernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v14_eq]
  obtain ⟨hQ, hK, hW⟩ := Cert.AttnFinite.real_of_pre _ _ _ (hpre c)
  exact (attnIn_eq_reference _ _ _ hQ hK hW).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
